-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S128x1 .f32) (main_arg5 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x1 .f32) (main_arg5 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S10000x1 : Shape := ⟨2, ![10000, 1]⟩
abbrev S200x10000 : Shape := ⟨2, ![200, 10000]⟩
abbrev S200x1 : Shape := ⟨2, ![200, 1]⟩
abbrev S200x128 : Shape := ⟨2, ![200, 128]⟩
abbrev S200 : Shape := ⟨1, ![200]⟩

abbrev nBuf : Space → Nat
  | .hbm => 9
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x128, .f32⟩
  | .hbm, ⟨7, _⟩ => ⟨S1x1, .f32⟩
  | .hbm, ⟨8, _⟩ => ⟨S10000x1, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S128x128, .f32⟩
  | .local _ .vmem, ⟨4, _⟩ => ⟨S1x128, .f32⟩
  | .local _ .vmem, ⟨5, _⟩ => ⟨S128x1, .f32⟩
  | .local _ .vmem, ⟨6, _⟩ => ⟨S1x1, .f32⟩
  | .local _ .vmem, ⟨7, _⟩ => ⟨S200x1, .f32⟩
  | .local _ .vmem, ⟨8, _⟩ => ⟨S200x1, .f32⟩
  | .local _ .vmem, ⟨9, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S200x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S200x1 : S1x1.Broadcasts S200x1
  reduces_S200x1_S200 : S200x1.Reduces [1] S200
  shapeCasts_S200_S200x1 : S200.ShapeCasts S200x1
  inb_S200x1_S200x1_0_0 : ∀ a, (![0, 0] : Fin 2 → Nat) a + S200x1.size a ≤ S200x1.size a
  h_S200x1 : 0 < S200x1.numel
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x1_S200x1_1_0_0_1_n_n_wf : DotDims.WF S200x128 S128x1 S200x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x1.size a ≤ S10000x1.size a
  hwx0_6 : ∀ i : grid0.Coords, EltTy.bits .f32 = 32 ∨ (Rect.block (s := S10000x1) S200x1.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x1_S200x1_1_0_0_1_n_n : DotDims S200x128 S128x1 S200x1 where
  lhsContracting := [1]
  rhsContracting := [0]
  lhsNonContracting := [0]
  rhsNonContracting := [1]
  lhsBatch := []
  rhsBatch := []
  wf := dot_S200x128_S128x1_S200x1_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S200x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S_ : Shape := ⟨0, ![]⟩
abbrev S10000x1 : Shape := ⟨2, ![10000, 1]⟩
abbrev S1x1 : Shape := ⟨2, ![1, 1]⟩
abbrev S10000 : Shape := ⟨1, ![10000]⟩

abbrev nBuf : Space → Nat
  | .hbm => 32
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x1, .f32⟩
  | .hbm, ⟨15, _⟩ => ⟨S10000x1, .f32⟩
  | .hbm, ⟨16, _⟩ => ⟨S1x1, .f32⟩
  | .hbm, ⟨17, _⟩ => ⟨S10000x1, .f32⟩
  | .hbm, ⟨18, _⟩ => ⟨S10000x1, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x1, .f32⟩
  | .hbm, ⟨26, _⟩ => ⟨S10000x1, .f32⟩
  | .hbm, ⟨27, _⟩ => ⟨S_, .f32⟩
  | .hbm, ⟨28, _⟩ => ⟨S10000, .f32⟩
  | .hbm, ⟨29, _⟩ => ⟨S10000x1, .f32⟩
  | .hbm, ⟨30, _⟩ => ⟨S10000x1, .f32⟩
  | .hbm, ⟨31, _⟩ => ⟨S10000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_cst_1 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_v12 : Ref sig .tc := ⟨.hbm, 31, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  reducesTo_S10000x1_S10000_d1 : S10000x1.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x1_S10000x1_1_0_0_1_n_n_wf : DotDims.WF S10000x128 S128x1 S10000x1 [1] [0] [0] [1] [] []
  dot_S10000x10000_S10000x1_S10000x1_1_0_0_1_n_n_wf : DotDims.WF S10000x10000 S10000x1 S10000x1 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def dot_S10000x10000_S10000x1_S10000x1_1_0_0_1_n_n : DotDims S10000x10000 S10000x1 S10000x1 where
  lhsContracting := [1]
  rhsContracting := [0]
  lhsNonContracting := [0]
  rhsNonContracting := [1]
  lhsBatch := []
  rhsBatch := []
  wf := dot_S10000x10000_S10000x1_S10000x1_1_0_0_1_n_n_wf

class Facts : Prop extends Facts₀ where

variable [Facts]
-- ==== Proof.LibFiniteReals.lean ====
/-
  Finite extended reals, and the vector operations that keep every entry finite.

  An extended real is FINITE when it is the image of a real number. Sums, products and maxima of finite values are
  finite, so a matrix product, a bias addition and a rectifier applied to arrays whose entries are all finite give
  arrays whose entries are all finite; re-indexings (broadcasts, reshapes) only move entries around. On a finite
  value `a - a = 0`; on an infinite one it is not, which is why the certificate's precondition is used.
-/
import Idealize.ShloMosaic.PureOps.Ideal.Laws
import Idealize.ShloMosaic.Lib.ValueIdx
import Idealize.ShloMosaic.Lib.Pipeline.Value

noncomputable section

namespace Cert.FiniteReals

open Idealize.ShloMosaic

/-- An extended real that is a real number. -/
def IsFin (x : EReal) : Prop := ∃ r : ℝ, x = (r : EReal)

theorem isFin_zero : IsFin 0 := ⟨0, rfl⟩
theorem isFin_coe (r : ℝ) : IsFin (r : EReal) := ⟨r, rfl⟩

theorem IsFin.add {a b : EReal} (ha : IsFin a) (hb : IsFin b) : IsFin (a + b) := by
  obtain ⟨x, rfl⟩ := ha; obtain ⟨y, rfl⟩ := hb
  exact ⟨x + y, (EReal.coe_add x y).symm⟩

theorem IsFin.mul {a b : EReal} (ha : IsFin a) (hb : IsFin b) : IsFin (a * b) := by
  obtain ⟨x, rfl⟩ := ha; obtain ⟨y, rfl⟩ := hb
  exact ⟨x * y, (EReal.coe_mul x y).symm⟩

theorem IsFin.max {a b : EReal} (ha : IsFin a) (hb : IsFin b) : IsFin (max a b) := by
  rcases le_total a b with h | h
  · rw [max_eq_right h]; exact hb
  · rw [max_eq_left h]; exact ha

theorem isFin_sum {ι : Type} (s : Finset ι) (f : ι → EReal) (h : ∀ i ∈ s, IsFin (f i)) : IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- On a finite value the difference with itself is zero (on `±∞` it is `-∞`). -/
theorem IsFin.sub_self {a : EReal} (ha : IsFin a) : a - a = 0 := by
  obtain ⟨x, rfl⟩ := ha
  rw [← EReal.coe_sub, _root_.sub_self]; rfl

/-- The f32 pattern of `-∞` is the bottom of the extended reals. -/
theorem ofBits_neg_inf : Ideal.ofBits .f32 0xFF800000#32 = ⊥ := by simp [Ideal.ofBits, Ideal.ieee]

theorem exp_zero : Ideal.exp 0 = 1 := by
  show Ideal.exp ((0 : ℝ) : EReal) = 1
  rw [Ideal.exp_coe, Real.exp_zero]; rfl

theorem log_one : Ideal.log 1 = 0 := by
  show Ideal.log ((1 : ℝ) : EReal) = 0
  rw [Ideal.log_coe, if_neg (by norm_num), Real.log_one]; rfl

/-- Every entry of an array is finite. -/
def AllFin {ι : Type} (v : ι → EReal) : Prop := ∀ i, IsFin (v i)

/-! ## Operations that keep every entry finite -/

section Ops
variable {s t : Shape}

/-- The zero splat. -/
theorem allFin_constant_zero (s : Shape) : AllFin (constant (F := Ideal) s .f32 0x00000000#32) := fun _ => by
  show IsFin (Ideal.ofBits .f32 0x00000000#32)
  rw [Ideal.ofBits_zero_f32]; exact isFin_zero

/-- The zero scalar, broadcast. -/
theorem allFin_broadcast_zero (s : Shape) : AllFin (broadcast s (Scalar.ofBits (F := Ideal) .f32 0x00000000#32)) := fun _ => by
  show IsFin (Ideal.ofBits .f32 0x00000000#32)
  rw [Ideal.ofBits_zero_f32]; exact isFin_zero

/-- A matrix product into the zero accumulator: each entry is a finite sum of products of finite entries. -/
theorem AllFin.matmul_zero {sl sr so : Shape} (d : DotDims sl sr so) (prec : Option ContractPrecision)
    {lhs : FVec Ideal sl .f32} {rhs : FVec Ideal sr .f32} (hl : AllFin lhs) (hr : AllFin rhs) :
    AllFin (matmul d prec lhs rhs (constant so .f32 0x00000000#32)) := fun j => by
  show IsFin (FloatOps.matmul d prec lhs rhs (constant so .f32 0x00000000#32) j)
  rw [Ideal.matmul_constant_zero_apply]
  exact isFin_sum _ _ fun k _ => (hl _).mul (hr _)

/-- The host's matrix product likewise. -/
theorem AllFin.dotGeneral {sl sr so : Shape} (d : DotDims sl sr so) (prec : Option ContractPrecision)
    {lhs : FVec Ideal sl .f32} {rhs : FVec Ideal sr .f32} (hl : AllFin lhs) (hr : AllFin rhs) :
    AllFin (Host.dotGeneral d prec lhs rhs) := fun j => by
  show IsFin (FloatOps.dotGeneral d prec .single lhs rhs j)
  rw [Ideal.dotGeneral_apply]
  exact isFin_sum _ _ fun k _ => (hl _).mul (hr _)

theorem AllFin.addf {x y : FVec Ideal s .f32} (hx : AllFin x) (hy : AllFin y) : AllFin (addf x y) :=
  fun i => (hx i).add (hy i)

theorem AllFin.maximumf {x y : FVec Ideal s .f32} (hx : AllFin x) (hy : AllFin y) : AllFin (maximumf x y) :=
  fun i => (hx i).max (hy i)

/-- Re-indexings read entries of their operand. -/
theorem AllFin.broadcastTo {x : FVec Ideal s .f32} (hx : AllFin x) (h : s.Broadcasts t) : AllFin (broadcastTo t x h) :=
  fun _ => hx _

theorem AllFin.broadcastInDim {x : FVec Ideal s .f32} (hx : AllFin x) (dims : Fin s.rank → Fin t.rank) (h : s.BroadcastsInDim t dims) :
    AllFin (broadcastInDim t dims h x) :=
  fun _ => hx _

theorem AllFin.shapeCast {x : FVec Ideal s .f32} (hx : AllFin x) (h : s.ShapeCasts t) : AllFin (shapeCast t x h) :=
  fun _ => hx _

end Ops

end Cert.FiniteReals

end
-- ==== Proof.FiniteInputs.lean ====
/-
  The precondition read back: every entry of every input is a real number.

  The printed predicate is the conjunction, over the six inputs, of `all(|x| < +∞)`. A conjunction of `i1` words that
  is `1` has every conjunct `1`; an `all` that is `1` has every element `1`; and `|x| < +∞` on the extended reals
  rules out both infinities, so `x` is a real number.
-/
import proofs.«141841_g26706106646738_cont_8to1_1738_3_alg».proof.Pre_finite_inputs
import proofs.«141841_g26706106646738_cont_8to1_1738_3_alg».proof.Proof.LibFiniteReals
import Idealize.ShloMosaic.Lib.ReduceAll

noncomputable section

namespace Cert.FiniteInputs

open Idealize.ShloMosaic Cert.FiniteReals

instance : Subsingleton (⟨0, ![]⟩ : Shape).Idx := ⟨fun _ _ => funext fun d => d.elim0⟩

/-- `|x| < +∞` holds of the real numbers only. -/
theorem isFin_of_abs_lt_inf (x : EReal) (h : Ideal.cmp .olt (max x (-x)) (Ideal.ofBits .f32 0x7F800000#32) = 1#1) : IsFin x := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

/-- `all(|x| < +∞) = 1` says every entry of `x` is a real number. -/
theorem allFin_of_all {s : Shape} {axes : List (Fin s.rank)} (x : FVec Ideal s .f32)
    (hb : (⟨0, ![]⟩ : Shape).BroadcastsInDim s ![]) (hrt : s.ReducesTo axes (⟨0, ![]⟩ : Shape)) (hu : 0 < (⟨0, ![]⟩ : Shape).numel)
    (j : (⟨0, ![]⟩ : Shape).Idx)
    (e : Host.reduce IntOp.andi (cmpf .olt (Host.absf x) (broadcastInDim s ![] hb (constant (⟨0, ![]⟩ : Shape) .f32 0x7F800000#32)))
      (constantI (⟨0, ![]⟩ : Shape) 1 1#1) hrt hu j = 1#1) : AllFin x := fun i =>
  isFin_of_abs_lt_inf (x i) (Host.reduce_andi_all _ _ hrt hu j e i)

/-- The whole precondition: all six inputs finite. -/
theorem allFin_of_pre [Cert.Pre_finite_inputs.Facts] (a0 : FVec Ideal Cert.Pre_finite_inputs.S10000x128 .f32)
    (a1 : FVec Ideal Cert.Pre_finite_inputs.S10000x10000 .f32) (a2 : FVec Ideal Cert.Pre_finite_inputs.S128x128 .f32)
    (a3 : FVec Ideal Cert.Pre_finite_inputs.S128 .f32) (a4 : FVec Ideal Cert.Pre_finite_inputs.S128x1 .f32)
    (a5 : FVec Ideal Cert.Pre_finite_inputs.S1 .f32)
    (h : Cert.Pre_finite_inputs.fn (F := Ideal) a0 a1 a2 a3 a4 a5 = fun _ => 1#1) :
    AllFin a0 ∧ AllFin a1 ∧ AllFin a2 ∧ AllFin a3 ∧ AllFin a4 ∧ AllFin a5 := by
  have h0 := congrFun h ValueIdx.ix0
  dsimp only [Cert.Pre_finite_inputs.fn, Cert.Pre_finite_inputs.fn_part1] at h0
  obtain ⟨h01234, e5⟩ := IntOp.andi_eq_one.1 (show IntOp.andi _ _ = 1#1 from h0)
  obtain ⟨h0123, e4⟩ := IntOp.andi_eq_one.1 (show IntOp.andi _ _ = 1#1 from h01234)
  obtain ⟨h012, e3⟩ := IntOp.andi_eq_one.1 (show IntOp.andi _ _ = 1#1 from h0123)
  obtain ⟨h01, e2⟩ := IntOp.andi_eq_one.1 (show IntOp.andi _ _ = 1#1 from h012)
  obtain ⟨e0, e1⟩ := IntOp.andi_eq_one.1 (show IntOp.andi _ _ = 1#1 from h01)
  exact ⟨allFin_of_all a0 _ _ _ _ e0, allFin_of_all a1 _ _ _ _ e1, allFin_of_all a2 _ _ _ _ e2,
    allFin_of_all a3 _ _ _ _ e3, allFin_of_all a4 _ _ _ _ e4, allFin_of_all a5 _ _ _ _ e5⟩

end Cert.FiniteInputs

end
-- ==== Proof.LibOneClass.lean ====
/-
  The log-softmax of a single class is zero.

  For a column `Z` of shape [n, 1] the row maximum over the one class is `Z` itself, so the shifted value is
  `Z - Z`, which is `0` wherever `Z` is finite; then `exp 0 = 1`, the sum over the one class is `1`, `log 1 = 0`, and
  the result `0 - 0` is `0`. This is stated twice, once for each spelling of the same computation: with lane
  reductions and reshapes (a kernel body's), and with host reductions and broadcasts (jax's `log_softmax`).
  Whatever finite column goes in, the zero column comes out: the value of `Z` plays no part beyond its finiteness.
-/
import proofs.«141841_g26706106646738_cont_8to1_1738_3_alg».proof.Proof.LibFiniteReals

noncomputable section

namespace Cert.OneClass

open Idealize.ShloMosaic Idealize.ShloMosaic.ValueIdx Cert.FiniteReals

/-- A column of `n` rows and one class, and the row of its `n` reduced values. -/
abbrev Col (n : ℕ) : Shape := ⟨2, ![n, 1]⟩
abbrev Row (n : ℕ) : Shape := ⟨1, ![n]⟩

/-! ## Indices: the one class of a row -/

/-- Putting the class coordinate back over row `r` gives (r, 0): there is only one class. -/
theorem lift_col {n : ℕ} (h : (Col n).Reduces [1] (Row n)) (r : Fin n) (k : Fin ((Col n).size 1)) :
    h.lift (ix1 r) k = ix2 r (0 : Fin 1) := by
  funext c; apply Fin.ext
  have hk : k.val = 0 := by have : k.val < 1 := k.isLt; omega
  match c with
  | ⟨0, _⟩ => rfl
  | ⟨1, _⟩ => exact hk

/-- A row viewed as a column reads row `r` at (r, z). -/
theorem shapeCast_row_col {α : Type} {n : ℕ} (v : (Row n).Idx → α) (h : (Row n).ShapeCasts (Col n)) (r : Fin n) (z : Fin 1) :
    shapeCast (Col n) v h (ix2 r z) = v (ix1 r) := by
  refine shapeCast_apply v h _ _ ?_
  rw [Shape.rowMajor_val_one, Shape.rowMajor_val_two]
  have : z.val = 0 := by omega
  show r.val = r.val * 1 + z.val
  omega

/-- A row broadcast along the class axis reads row `r` at (r, z). -/
theorem bcast_row_col {α : Type} {n : ℕ} (v : (Row n).Idx → α) (h : (Row n).BroadcastsInDim (Col n) ![0]) (r : Fin n) (z : Fin 1) :
    broadcastInDim (Col n) ![0] h v (ix2 r z) = v (ix1 r) := by
  refine broadcastInDim_apply _ h v _ _ ?_
  intro a
  match a with
  | ⟨0, _⟩ =>
    show r.val = if n = 1 then 0 else r.val
    split
    · omega
    · rfl

/-- Every index of a column is (r, 0). -/
theorem eq_col {n : ℕ} (i : (Col n).Idx) : i = ix2 (i 0) (0 : Fin 1) := by
  funext a
  match a with
  | ⟨0, _⟩ => rfl
  | ⟨1, _⟩ => exact Fin.ext (by show (i 1).val = 0; have : (i 1).val < 1 := (i 1).isLt; omega)

/-! ## Reductions over the one class -/

/-- A fold of `max` over a one-element index type is the one entry against the initial value. -/
theorem fold_max_one (b : EReal) (f : Fin 1 → EReal) : (Finset.univ : Finset (Fin 1)).fold max b f = max (f 0) b := by
  rw [Finset.univ_unique, Finset.fold_singleton]; rfl

/-- The maximum over the one class, from `-∞`, is the entry. -/
theorem colMax_apply {n : ℕ} (Z : FVec Ideal (Col n) .f32) (hr : (Col n).Reduces [1] (Row n)) (hφ : FKind.Formats .f32)
    (hacc : (0xFF800000#32 : BitVec 32) = FKind.maximumf.neutral .f32 hφ) (r : Fin n) :
    multiReduction .maximumf [1] (Row n) Z 0xFF800000#32 hr hφ hacc (ix1 r) = Z (ix2 r 0) := by
  rw [Ideal.multiReduction_maximumf_single]
  refine (fold_max_one (Ideal.ofBits .f32 0xFF800000#32) (Z ∘ hr.lift (ix1 r))).trans ?_
  rw [ofBits_neg_inf, max_bot_right]
  exact congrArg Z (lift_col hr r _)

/-- The sum over the one class, from zero, is the entry. -/
theorem colSum_apply {n : ℕ} (Z : FVec Ideal (Col n) .f32) (hr : (Col n).Reduces [1] (Row n)) (hφ : FKind.Formats .f32)
    (hacc : (0x00000000#32 : BitVec 32) = FKind.add.neutral .f32 hφ) (r : Fin n) :
    multiReduction .add [1] (Row n) Z 0x00000000#32 hr hφ hacc (ix1 r) = Z (ix2 r 0) := by
  rw [Ideal.multiReduction_add_single]
  show ∑ k : Fin 1, Z (hr.lift (ix1 r) k) = _
  rw [Finset.univ_unique, Finset.sum_singleton]
  exact congrArg Z (lift_col hr r _)

/-- The host's maximum over the one class, from `-∞`, is the entry. -/
theorem hostColMax_apply {n : ℕ} (Z : FVec Ideal (Col n) .f32) (hrt : (Col n).ReducesTo [1] (Row n)) (hr : (Col n).Reduces [1] (Row n))
    (hu : 0 < (⟨0, ![]⟩ : Shape).numel) (r : Fin n) :
    Host.reduce FloatOps.maximumf Z (constant (⟨0, ![]⟩ : Shape) .f32 0xFF800000#32) hrt hu (ix1 r) = Z (ix2 r 0) := by
  rw [Host.reduce_eq_fold_single FloatOps.maximumf Z _ hrt hr hu]
  refine (fold_max_one (Ideal.ofBits .f32 0xFF800000#32) (Z ∘ hr.lift (ix1 r))).trans ?_
  rw [ofBits_neg_inf, max_bot_right]
  exact congrArg Z (lift_col hr r _)

/-- The host's sum over the one class, from zero, is the entry. -/
theorem hostColSum_apply {n : ℕ} (Z : FVec Ideal (Col n) .f32) (hrt : (Col n).ReducesTo [1] (Row n)) (hr : (Col n).Reduces [1] (Row n))
    (hu : 0 < (⟨0, ![]⟩ : Shape).numel) (r : Fin n) :
    Host.reduceAdd Z (constant (⟨0, ![]⟩ : Shape) .f32 0x00000000#32) hrt hu (ix1 r) = Z (ix2 r 0) := by
  unfold Host.reduceAdd
  rw [Ideal.hostReduceAdd_def, Ideal.hostReduceAdd_single hrt hr]
  show Ideal.ofBits .f32 0x00000000#32 + ∑ k : Fin 1, Z (hr.lift (ix1 r) k) = _
  rw [Ideal.ofBits_zero_f32, zero_add, Finset.univ_unique, Finset.sum_singleton]
  exact congrArg Z (lift_col hr r _)

/-! ## The log-softmax of one class -/

/-- With lane reductions and reshapes (a kernel body's spelling): zero on a finite column. -/
theorem lsm_lanes_zero {n : ℕ} (Z : FVec Ideal (Col n) .f32) (hZ : AllFin Z) (hr : (Col n).Reduces [1] (Row n)) (hφ : FKind.Formats .f32)
    (hmax : (0xFF800000#32 : BitVec 32) = FKind.maximumf.neutral .f32 hφ) (hadd : (0x00000000#32 : BitVec 32) = FKind.add.neutral .f32 hφ)
    (hsc : (Row n).ShapeCasts (Col n)) :
    subf (subf Z (shapeCast (Col n) (multiReduction .maximumf [1] (Row n) Z 0xFF800000#32 hr hφ hmax) hsc))
      (log (shapeCast (Col n) (multiReduction .add [1] (Row n)
        (exp (subf Z (shapeCast (Col n) (multiReduction .maximumf [1] (Row n) Z 0xFF800000#32 hr hφ hmax) hsc))) 0x00000000#32 hr hφ hadd) hsc))
      = fun _ => (0 : EReal) := by
  have hshift : subf Z (shapeCast (Col n) (multiReduction .maximumf [1] (Row n) Z 0xFF800000#32 hr hφ hmax) hsc) = fun _ => (0 : EReal) := by
    funext i
    obtain ⟨r, rfl⟩ : ∃ r : Fin n, i = ix2 r (0 : Fin 1) := ⟨i 0, eq_col i⟩
    show Z (ix2 r 0) - shapeCast (Col n) (multiReduction .maximumf [1] (Row n) Z 0xFF800000#32 hr hφ hmax) hsc (ix2 r 0) = 0
    rw [shapeCast_row_col, colMax_apply]
    exact (hZ _).sub_self
  rw [hshift]
  funext i
  obtain ⟨r, rfl⟩ : ∃ r : Fin n, i = ix2 r (0 : Fin 1) := ⟨i 0, eq_col i⟩
  show (0 : EReal) - Ideal.log (shapeCast (Col n) (multiReduction .add [1] (Row n) (exp (F := Ideal) (φ := .f32) fun _ => (0 : EReal)) 0x00000000#32 hr hφ hadd) hsc (ix2 r 0)) = 0
  rw [shapeCast_row_col, colSum_apply]
  show (0 : EReal) - Ideal.log (Ideal.exp 0) = 0
  rw [exp_zero, log_one, sub_zero]

/-- With host reductions and broadcasts (jax's `log_softmax` over an axis of one class): zero on a finite column. -/
theorem lsm_host_zero {n : ℕ} (Z : FVec Ideal (Col n) .f32) (hZ : AllFin Z) (hrt : (Col n).ReducesTo [1] (Row n)) (hr : (Col n).Reduces [1] (Row n))
    (hu : 0 < (⟨0, ![]⟩ : Shape).numel) (hb0 : (⟨0, ![]⟩ : Shape).BroadcastsInDim (Row n) ![]) (hb1 : (Row n).BroadcastsInDim (Col n) ![0]) :
    subf (subf Z (broadcastInDim (Col n) ![0] hb1 (maximumf (broadcastInDim (Row n) ![] hb0 (constant (⟨0, ![]⟩ : Shape) .f32 0xFF800000#32))
        (Host.reduce FloatOps.maximumf Z (constant (⟨0, ![]⟩ : Shape) .f32 0xFF800000#32) hrt hu))))
      (Host.log (broadcastInDim (Col n) ![0] hb1 (Host.reduceAdd (Host.exp (subf Z (broadcastInDim (Col n) ![0] hb1
        (maximumf (broadcastInDim (Row n) ![] hb0 (constant (⟨0, ![]⟩ : Shape) .f32 0xFF800000#32))
          (Host.reduce FloatOps.maximumf Z (constant (⟨0, ![]⟩ : Shape) .f32 0xFF800000#32) hrt hu)))))
        (constant (⟨0, ![]⟩ : Shape) .f32 0x00000000#32) hrt hu)))
      = fun _ => (0 : EReal) := by
  have hshift : subf Z (broadcastInDim (Col n) ![0] hb1 (maximumf (broadcastInDim (Row n) ![] hb0 (constant (⟨0, ![]⟩ : Shape) .f32 0xFF800000#32))
        (Host.reduce FloatOps.maximumf Z (constant (⟨0, ![]⟩ : Shape) .f32 0xFF800000#32) hrt hu))) = fun _ => (0 : EReal) := by
    funext i
    obtain ⟨r, rfl⟩ : ∃ r : Fin n, i = ix2 r (0 : Fin 1) := ⟨i 0, eq_col i⟩
    show Z (ix2 r 0) - broadcastInDim (Col n) ![0] hb1 (maximumf (broadcastInDim (Row n) ![] hb0 (constant (⟨0, ![]⟩ : Shape) .f32 0xFF800000#32))
        (Host.reduce FloatOps.maximumf Z (constant (⟨0, ![]⟩ : Shape) .f32 0xFF800000#32) hrt hu)) (ix2 r 0) = 0
    rw [bcast_row_col]
    show Z (ix2 r 0) - max (Ideal.ofBits .f32 0xFF800000#32)
        (Host.reduce FloatOps.maximumf Z (constant (⟨0, ![]⟩ : Shape) .f32 0xFF800000#32) hrt hu (ix1 r)) = 0
    rw [hostColMax_apply Z hrt hr hu, ofBits_neg_inf, max_bot_left]
    exact (hZ _).sub_self
  rw [hshift]
  funext i
  obtain ⟨r, rfl⟩ : ∃ r : Fin n, i = ix2 r (0 : Fin 1) := ⟨i 0, eq_col i⟩
  show (0 : EReal) - Ideal.log (broadcastInDim (Col n) ![0] hb1 (Host.reduceAdd (Host.exp (F := Ideal) (φ := .f32) fun _ => (0 : EReal))
      (constant (⟨0, ![]⟩ : Shape) .f32 0x00000000#32) hrt hu) (ix2 r 0)) = 0
  rw [bcast_row_col, hostColSum_apply _ hrt hr hu]
  show (0 : EReal) - Ideal.log (Ideal.exp 0) = 0
  rw [exp_zero, log_one, sub_zero]

end Cert.OneClass

end
-- ==== Proof.KernelBody.lean ====
/-
  The kernel body's two stored values, read on the extended reals.

  The body stores `x · W0` into its scratch at the grid's first point (`k0_pay1`), and at every point stores into the
  output block the log-softmax, over the ONE class, of `z = relu(adj_block · scratch + b0) · W1 + b1` (`k0_pay2`).
  When the loaded blocks are finite, `x · W0` is finite (sums of products of finite entries), so is `z`, and the
  log-softmax of a finite one-class column is the zero column.
-/
import proofs.«141841_g26706106646738_cont_8to1_1738_3_alg».proof.Proof.Gen.KernelIdeal.Skeleton
import proofs.«141841_g26706106646738_cont_8to1_1738_3_alg».proof.Proof.LibOneClass

noncomputable section

namespace Cert.KernelIdeal.Body

open Idealize.ShloMosaic Cert.KernelIdeal Cert.KernelIdeal.Gen Cert.FiniteReals Cert.OneClass

/-- The scratch's contents `x · W0` are finite when `x` and `W0` are. -/
theorem pay1_allFin (x : FVec Ideal S10000x128 .f32) (w0 : FVec Ideal S128x128 .f32) (hx : AllFin x) (hw0 : AllFin w0) :
    AllFin (k0_pay1 (F := Ideal) x w0) := by
  unfold k0_pay1
  exact (AllFin.matmul_zero _ _ hx hw0).shapeCast _

/-- The logits `relu(adj_block · s + b0) · W1 + b1` are finite when every block is. -/
theorem logits_allFin (adj : FVec Ideal S200x10000 .f32) (s : FVec Ideal S10000x128 .f32) (b0 : FVec Ideal S1x128 .f32)
    (w1 : FVec Ideal S128x1 .f32) (b1 : FVec Ideal S1x1 .f32)
    (hadj : AllFin adj) (hs : AllFin s) (hb0 : AllFin b0) (hw1 : AllFin w1) (hb1 : AllFin b1) :
    AllFin (addf (F := Ideal) (matmul dot_S200x128_S128x1_S200x1_1_0_0_1_n_n none
        (maximumf (addf (matmul dot_S200x10000_S10000x128_S200x128_1_0_0_1_n_n none adj s (constant S200x128 .f32 0x00000000#32))
            (broadcastTo S200x128 (shapeCast S1x128 b0 shapeCasts_S1x128_S1x128) broadcasts_S1x128_S200x128))
          (broadcast S200x128 (Scalar.ofBits .f32 0x00000000#32)))
        w1 (constant S200x1 .f32 0x00000000#32))
      (broadcastTo S200x1 (shapeCast S1x1 b1 shapeCasts_S1x1_S1x1) broadcasts_S1x1_S200x1)) :=
  (AllFin.matmul_zero _ _
      (((AllFin.matmul_zero _ _ hadj hs).addf ((hb0.shapeCast _).broadcastTo _)).maximumf (allFin_broadcast_zero _)) hw1).addf
    ((hb1.shapeCast _).broadcastTo _)

/-- The output block is the zero block when every loaded block is finite. -/
theorem pay2_zero (adj : FVec Ideal S200x10000 .f32) (s : FVec Ideal S10000x128 .f32) (b0 : FVec Ideal S1x128 .f32)
    (w1 : FVec Ideal S128x1 .f32) (b1 : FVec Ideal S1x1 .f32)
    (hadj : AllFin adj) (hs : AllFin s) (hb0 : AllFin b0) (hw1 : AllFin w1) (hb1 : AllFin b1) :
    k0_pay2 (F := Ideal) adj s b0 w1 b1 = fun _ => (0 : EReal) := by
  unfold k0_pay2
  exact lsm_lanes_zero (n := 200) _ (logits_allFin adj s b0 w1 b1 hadj hs hb0 hw1 hb1) _ _ _ _ _

end Cert.KernelIdeal.Body

end
-- ==== Proof.KernelValue.lean ====
/-
  What the idealized kernel's result array holds on finite inputs: zero, everywhere.

  The grid has 50 points; point `t` reads rows 200·t … 200·t + 199 of `adj`. The scratch is stored whole at the first
  point (`x · W0`) and only read afterwards, so after every point it holds finite entries (induction on the point:
  the first point stores a finite array, a later point stores nothing). At every point the body's stored block is the
  one-class log-softmax of finite logits, which is the zero block. The 50 blocks of 200 rows tile the [10000, 1]
  result, so the result array ends as the zero column.
-/
import proofs.«141841_g26706106646738_cont_8to1_1738_3_alg».proof.Proof.Gen.KernelIdeal.Value
import proofs.«141841_g26706106646738_cont_8to1_1738_3_alg».proof.Proof.KernelBody
import Idealize.ShloMosaic.Lib.Tactic

noncomputable section

namespace Cert.KernelIdeal.ZeroValue

open Cert.KernelIdeal Cert.KernelIdeal.Gen Cert.KernelIdeal.Value Cert.KernelIdeal.Body
open Idealize.ShloMosaic Idealize.ShloMosaic.TcCoe Idealize.SL.Sem Cert.FiniteReals
open Idealize.ShloMosaic.Pipeline (Dat)

/-! ## What each case of the body leaves, as the body's pure terms (at any float instance) -/

section Pieces
variable {F : FTy → Type} [FloatOps F]

theorem hz : (![0, 0] : Fin 2 → Nat) = fun _ => 0 := funext fun a => by fin_cases a <;> rfl

/-- At the first point the scratch ends holding `x · W0` of the loaded blocks. -/
theorem scratch_first (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x1 .f32) (harg5 : arg5.IsWhole) (arg6 : Memref sig .tc .vmem S1x1 .f32) (harg6 : arg6.IsWhole) (arg7 : Memref sig .tc .vmem S200x1 .f32) (harg7 : arg7.IsWhole) (arg8 : Memref sig .tc .vmem S10000x128 .f32) (harg8 : arg8.IsWhole) (hc0 : cond0_0 i) (x0 : Vec F S10000x128 .f32) (x1 : Vec F S200x10000 .f32) (x2 : Vec F S128x128 .f32) (x3 : Vec F S1x128 .f32) (x4 : Vec F S128x1 .f32) (x5 : Vec F S1x1 .f32) :
    sout0_A_0 c i arg1 harg1 arg2 harg2 arg3 harg3 arg4 harg4 arg5 harg5 arg6 harg6 arg7 harg7 arg8 harg8 hc0 x0 x1 x2 x3 x4 x5 = k0_pay1 x0 x2 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3 x4 x5)]
  unfold kernelRun0_A
  dsimp only
  sl_unfold_words
  rw [View.canon_unit_zero hz]
  simp only [View.readAt_eq_ld, harg1.read_unread, harg3.read_unread, View.ld_unit_zero (S := S10000x128) hz,
    View.ld_unit_zero (S := S128x128) hz]

/-- At the first point the output block is the body's value over the scratch it has just stored. -/
theorem out_first (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x1 .f32) (harg5 : arg5.IsWhole) (arg6 : Memref sig .tc .vmem S1x1 .f32) (harg6 : arg6.IsWhole) (arg7 : Memref sig .tc .vmem S200x1 .f32) (harg7 : arg7.IsWhole) (arg8 : Memref sig .tc .vmem S10000x128 .f32) (harg8 : arg8.IsWhole) (hc0 : cond0_0 i) (x0 : Vec F S10000x128 .f32) (x1 : Vec F S200x10000 .f32) (x2 : Vec F S128x128 .f32) (x3 : Vec F S1x128 .f32) (x4 : Vec F S128x1 .f32) (x5 : Vec F S1x1 .f32) :
    out0_A_6 c i arg1 harg1 arg2 harg2 arg3 harg3 arg4 harg4 arg5 harg5 arg6 harg6 arg7 harg7 arg8 harg8 hc0 x0 x1 x2 x3 x4 x5 = k0_pay2 x1 (k0_pay1 x0 x2) x3 x4 x5 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread,
    harg6.read_unread, View.readCov_unit_zero (S := S10000x128) _ hz, View.ld_unit_zero (S := S10000x128) hz,
    View.ld_unit_zero (S := S200x10000) hz, View.ld_unit_zero (S := S128x128) hz, View.ld_unit_zero (S := S1x128) hz,
    View.ld_unit_zero (S := S128x1) hz, View.ld_unit_zero (S := S1x1) hz]

/-- At a later point the output block is the body's value over the scratch the point before left. -/
theorem out_later (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x1 .f32) (harg5 : arg5.IsWhole) (arg6 : Memref sig .tc .vmem S1x1 .f32) (harg6 : arg6.IsWhole) (arg7 : Memref sig .tc .vmem S200x1 .f32) (harg7 : arg7.IsWhole) (arg8 : Memref sig .tc .vmem S10000x128 .f32) (harg8 : arg8.IsWhole) (hc0 : ¬cond0_0 i) (x0 : Vec F S10000x128 .f32) (x1 : Vec F S200x10000 .f32) (x2 : Vec F S128x128 .f32) (x3 : Vec F S1x128 .f32) (x4 : Vec F S128x1 .f32) (x5 : Vec F S1x1 .f32) (xs0 : Vec F S10000x128 .f32) :
    out0_B_6 c i arg1 harg1 arg2 harg2 arg3 harg3 arg4 harg4 arg5 harg5 arg6 harg6 arg7 harg7 arg8 harg8 hc0 x0 x1 x2 x3 x4 x5 xs0 = k0_pay2 x1 xs0 x3 x4 x5 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 x5 xs0)]
  unfold kernelRun0_B
  dsimp only
  sl_unfold_words
  rw [View.canon_unit_zero hz]
  simp only [View.readAt_eq_ld, harg2.read_unread, harg4.read_unread, harg5.read_unread, harg6.read_unread, harg8.read_unread,
    View.ld_unit_zero (S := S10000x128) hz, View.ld_unit_zero (S := S200x10000) hz, View.ld_unit_zero (S := S1x128) hz,
    View.ld_unit_zero (S := S128x1) hz, View.ld_unit_zero (S := S1x1) hz]

end Pieces

/-! ## On the extended reals, from finite argument arrays -/

variable (m : (ℓ : Loc nD τ sig) → Buf (Elt Ideal) ℓ) (ρ : Dev nD → PrngReg)

/-- The six argument arrays of device `c` hold real numbers. -/
structure FinArgs (c : Dev nD) : Prop where
  x : AllFin (m ((c : Thread nD τ).loc main_arg0))
  adj : AllFin (m ((c : Thread nD τ).loc main_arg1))
  w0 : AllFin (m ((c : Thread nD τ).loc main_arg2))
  b0 : AllFin (m ((c : Thread nD τ).loc main_arg3))
  w1 : AllFin (m ((c : Thread nD τ).loc main_arg4))
  b1 : AllFin (m ((c : Thread nD τ).loc main_arg5))

/-- The two biases reach the region reshaped ([128] as [1, 128], [1] as [1, 1]) by the host. -/
theorem V_b0 (c : Dev nD) : (V m c main_v0 : S1x128.Idx → EReal) = shapeCast S1x128 (m ((c : Thread nD τ).loc main_arg3)) shapeCasts_S128_S1x128 := by
  dsimp only [Gen.V, Gen.hostOps0]; after_results; rfl

theorem V_b1 (c : Dev nD) : (V m c main_v1 : S1x1.Idx → EReal) = shapeCast S1x1 (m ((c : Thread nD τ).loc main_arg5)) shapeCasts_S1_S1x1 := by
  dsimp only [Gen.V, Gen.hostOps0]; after_results; rfl

variable {m}

/-- Every block a point loads is finite: a block reads entries of its array. -/
theorem blk0_fin {c : Dev nD} (hf : FinArgs m c) (t : Fin cfg0.N) : AllFin (iblk m c 0 t) := fun y => by
  show IsFin (V m c main_arg0 (((cfg0.win 0).blk t).view.emb y))
  rw [V_main_arg0]; exact hf.x _

theorem blk1_fin {c : Dev nD} (hf : FinArgs m c) (t : Fin cfg0.N) : AllFin (iblk m c 1 t) := fun y => by
  show IsFin (V m c main_arg1 (((cfg0.win 1).blk t).view.emb y))
  rw [V_main_arg1]; exact hf.adj _

theorem blk2_fin {c : Dev nD} (hf : FinArgs m c) (t : Fin cfg0.N) : AllFin (iblk m c 2 t) := fun y => by
  show IsFin (V m c main_arg2 (((cfg0.win 2).blk t).view.emb y))
  rw [V_main_arg2]; exact hf.w0 _

theorem blk3_fin {c : Dev nD} (hf : FinArgs m c) (t : Fin cfg0.N) : AllFin (iblk m c 3 t) := fun y => by
  show IsFin ((V m c main_v0 : S1x128.Idx → EReal) (((cfg0.win 3).blk t).view.emb y))
  rw [V_b0]; exact hf.b0.shapeCast _ _

theorem blk4_fin {c : Dev nD} (hf : FinArgs m c) (t : Fin cfg0.N) : AllFin (iblk m c 4 t) := fun y => by
  show IsFin (V m c main_arg4 (((cfg0.win 4).blk t).view.emb y))
  rw [V_main_arg4]; exact hf.w1 _

theorem blk5_fin {c : Dev nD} (hf : FinArgs m c) (t : Fin cfg0.N) : AllFin (iblk m c 5 t) := fun y => by
  show IsFin ((V m c main_v1 : S1x1.Idx → EReal) (((cfg0.win 5).blk t).view.emb y))
  rw [V_b1]; exact hf.b1.shapeCast _ _

/-- THE INVARIANT: after every point the carried scratch holds finite entries. -/
theorem scratch_fin {c : Dev nD} (hf : FinArgs m c) : ∀ (n : ℕ) (hn : n < cfg0.N), AllFin (outsAt0 m c n hn).2
  | 0, hn => by
    let t : Fin cfg0.N := ⟨0, hn⟩
    rw [outsAt0_A m c t rfl]; dsimp only
    rw [scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr rfl) (iblk m c 0 t) (iblk m c 1 t) (iblk m c 2 t) (iblk m c 3 t) (iblk m c 4 t) (iblk m c 5 t)]
    exact pay1_allFin (iblk m c 0 t) (iblk m c 2 t) (blk0_fin hf t) (blk2_fin hf t)
  | n + 1, hn => by
    let t : Fin cfg0.N := ⟨n + 1, hn⟩
    have hN : cfg0.N = 50 := N_0
    have hB : ¬t.val % 50 = 0 := by show ¬(n + 1) % 50 = 0; omega
    rw [outsAt0_B m c t hB]; dsimp only
    unfold sout0_B_0
    exact scratch_fin hf n (Nat.lt_of_succ_lt hn)

/-- So at every point the body leaves the zero block in the output's staging buffer. -/
theorem out_zero {c : Dev nD} (hf : FinArgs m c) (t : Fin cfg0.N) : (outsAt0 m c t.val t.isLt).1 = fun _ => (0 : EReal) := by
  by_cases h0 : t.val % 50 = 0
  · rw [outsAt0_A m c t h0]; dsimp only
    rw [out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)]
    exact pay2_zero (iblk m c 1 t) (k0_pay1 (iblk m c 0 t) (iblk m c 2 t)) (iblk m c 3 t) (iblk m c 4 t) (iblk m c 5 t)
      (blk1_fin hf t) (pay1_allFin (iblk m c 0 t) (iblk m c 2 t) (blk0_fin hf t) (blk2_fin hf t)) (blk3_fin hf t) (blk4_fin hf t) (blk5_fin hf t)
  · rw [outsAt0_B m c t h0]; dsimp only
    rw [out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t)
      (outsAt0 m c (t.val - 1) (Nat.lt_of_le_of_lt (Nat.sub_le _ _) t.isLt)).2]
    exact pay2_zero (iblk m c 1 t) (outsAt0 m c (t.val - 1) (Nat.lt_of_le_of_lt (Nat.sub_le _ _) t.isLt)).2 (iblk m c 3 t) (iblk m c 4 t) (iblk m c 5 t)
      (blk1_fin hf t) (scratch_fin hf (t.val - 1) _) (blk3_fin hf t) (blk4_fin hf t) (blk5_fin hf t)

/-! ## From blocks to the array -/

/-- What point `t` writes back is block `t` of the zero column. -/
theorem flushed_zero {c : Dev nD} (hf : FinArgs m c) (t : Fin cfg0.N) :
    (dats m 0 c).flushed 6 t = ((cfg0.win 6).blk t).view.read (Elt Ideal) (fun _ => (0 : EReal)) := by
  rw [flushed6, out_zero hf t]
  rfl

/-- The output's block index at point `t` is (t, 0): decided over the grid. -/
theorem out_index : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- Row `r` of the result lies in the block of point `r / 200`: the 50 blocks of 200 rows tile the 10000 rows. -/
theorem covered (i : S10000x1.Idx) : ∃ t : Fin cfg0.N, (cfg0.win 6).flush t = true ∧ i ∈ ((cfg0.win 6).blk t).view.set := by
  have hi0 : (i 0).val < 10000 := (i 0).isLt
  have hi1 : (i 1).val < 1 := (i 1).isLt
  have hN : cfg0.N = 50 := N_0
  have ht : (i 0).val / 200 < cfg0.N := by omega
  obtain ⟨e0, e1⟩ := out_index ⟨(i 0).val / 200, ht⟩
  have e0' : win0_6.index ⟨(i 0).val / 200, ht⟩ (0 : Fin 2) = (i 0).val / 200 := e0
  refine ⟨⟨(i 0).val / 200, ht⟩, flush0_6 _, ?_⟩
  show i ∈ ((View.whole main_v2).slice (win0_6.rect ⟨(i 0).val / 200, ht⟩)).set
  rw [View.set_slice_whole, Rect.mem_set_unit]
  intro a
  match a with
  | ⟨0, _⟩ =>
    show win0_6.index ⟨(i 0).val / 200, ht⟩ (0 : Fin 2) * 200 ≤ (i 0).val ∧ (i 0).val < win0_6.index ⟨(i 0).val / 200, ht⟩ (0 : Fin 2) * 200 + 200
    omega
  | ⟨1, _⟩ =>
    show win0_6.index ⟨(i 0).val / 200, ht⟩ (1 : Fin 2) * 1 ≤ (i 1).val ∧ (i 1).val < win0_6.index ⟨(i 0).val / 200, ht⟩ (1 : Fin 2) * 1 + 1
    omega

/-- So the result array ends as the zero column. -/
theorem final_zero {c : Dev nD} (hf : FinArgs m c) : (dats m 0 c).arrAt 6 cfg0.N = fun _ => (0 : EReal) :=
  (dats m 0 c).arrAt_eq_of_cover 6 (fun _ => (0 : EReal)) (fun t _ => flushed_zero hf t) covered

/-- The run, read: the result at the zero column, the arguments unchanged. -/
theorem run (hf : ∀ c, FinArgs m c) : θ_run defs (onTc (τ := τ) (main (F := Ideal))) ⟨m, fun _ => 0, ρ⟩ fun r => ∀ c : Dev nD,
      r.2.mem ((c : Thread nD τ).loc main_v2) = (fun _ => (0 : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_zero (hf c)), (h c).2⟩) (run_blocks m ρ)

end Cert.KernelIdeal.ZeroValue

end
-- ==== Proof.RefValue.lean ====
/-
  The reference's result on finite inputs is the zero column.

  The reference computes `log_softmax(adj · (relu(adj · (x · W0) + b0) · W1) + b1)` over its one class. Each stage
  keeps entries finite (matrix products, bias additions, the rectifier), so the logits are a finite column, and the
  log-softmax of a finite one-class column is zero.
-/
import proofs.«141841_g26706106646738_cont_8to1_1738_3_alg».proof.Proof.Gen.ReferenceIdeal.Run
import proofs.«141841_g26706106646738_cont_8to1_1738_3_alg».proof.Proof.LibOneClass

noncomputable section

namespace Cert.ReferenceIdeal.RefValue

open Cert.ReferenceIdeal Cert.ReferenceIdeal.Gen Cert.ReferenceIdeal.Value
open Idealize.ShloMosaic Idealize.ShloMosaic.TcCoe Idealize.SL.Sem Cert.FiniteReals Cert.OneClass

/-- The run's result term is the zero column when the six argument arrays are finite. -/
theorem result_zero (m : (ℓ : Loc nD τ sig) → Buf (Elt Ideal) ℓ) (c : Dev nD)
    (h0 : AllFin (m ((c.tc : Thread nD τ).loc main_arg0))) (h1 : AllFin (m ((c.tc : Thread nD τ).loc main_arg1)))
    (h2 : AllFin (m ((c.tc : Thread nD τ).loc main_arg2))) (h3 : AllFin (m ((c.tc : Thread nD τ).loc main_arg3)))
    (h4 : AllFin (m ((c.tc : Thread nD τ).loc main_arg4))) (h5 : AllFin (m ((c.tc : Thread nD τ).loc main_arg5))) :
    res_main_v12 (F := Ideal) m c = fun _ => (0 : EReal) := by
  -- x · W0, then the hidden layer relu(adj · (x · W0) + b0), then its projection by W1, then the logits
  have hS0 := AllFin.dotGeneral dot_S10000x128_S128x128_S10000x128_1_0_0_1_n_n none h0 h2
  have hH := ((AllFin.dotGeneral dot_S10000x10000_S10000x128_S10000x128_1_0_0_1_n_n none h1 hS0).addf
      ((h3.broadcastInDim ![1] bcast_S128_S1x128_1).broadcastInDim ![0, 1] bcast_S1x128_S10000x128_0_1)).maximumf
    ((allFin_constant_zero S_).broadcastInDim ![] bcast_S_S10000x128)
  have hS1 := AllFin.dotGeneral dot_S10000x128_S128x1_S10000x1_1_0_0_1_n_n none hH h4
  have hZ := (AllFin.dotGeneral dot_S10000x10000_S10000x1_S10000x1_1_0_0_1_n_n none h1 hS1).addf
    ((h5.broadcastInDim ![1] bcast_S1_S1x1_1).broadcastInDim ![0, 1] bcast_S1x1_S10000x1_0_1)
  unfold res_main_v12
  exact lsm_host_zero (n := 10000) _ hZ _ (by decide) _ _ _

end Cert.ReferenceIdeal.RefValue

end
-- ==== Proof.lean ====
/-
  The certificate of a two-layer graph convolution whose last layer has ONE output class.

  Both programs end in a log-softmax over the class axis, and that axis has size one. For a finite logit `v` the
  log-softmax of the one-element row `[v]` is `(v - v) - log(exp(v - v)) = 0 - log 1 = 0`. So on finite inputs BOTH
  programs return the zero column of shape [10000, 1], and the claim `algebraic` holds because the two results are
  that same constant — not because the two programs compute the same logits. They do not: the reference's logits are
  `adj · (relu(adj · (x · W0) + b0) · W1) + b1`, the kernel's are `relu(adj_block · (x · W0) + b0) · W1 + b1` (it
  omits the second product with `adj`), and the difference is invisible only because a one-class log-softmax forgets
  its finite argument. What the proof needs of the logits on either side is FINITENESS alone, which sums, products
  and maxima of finite extended reals keep; this is where the precondition (every input entry finite) is used, since
  `v - v` is `-∞`, not `0`, at an infinite `v`.

  The modules: `LibFiniteReals` (finite extended reals and the operations that keep arrays finite), `LibOneClass` (the
  log-softmax of one class is zero, in the kernel's and in jax's spelling), `FiniteInputs` (the precondition read
  back), `KernelBody` and `KernelValue` (the kernel: the scratch `x · W0` stays finite across the 50 grid points, each
  point stores the zero block, the blocks tile the result), `RefValue` (the reference's term is the zero column).
  The three frames are the generated runs; the ideal pass rewrote nothing, so `preserves` is `True`.
-/
import proofs.«141841_g26706106646738_cont_8to1_1738_3_alg».proof.Defs
import proofs.«141841_g26706106646738_cont_8to1_1738_3_alg».proof.Proof.Gen.Kernel
import proofs.«141841_g26706106646738_cont_8to1_1738_3_alg».proof.Proof.Gen.Kernel.Frame
import proofs.«141841_g26706106646738_cont_8to1_1738_3_alg».proof.Proof.Gen.KernelIdeal
import proofs.«141841_g26706106646738_cont_8to1_1738_3_alg».proof.Proof.Gen.KernelIdeal.Frame
import proofs.«141841_g26706106646738_cont_8to1_1738_3_alg».proof.Proof.Gen.KernelIdeal.Value
import proofs.«141841_g26706106646738_cont_8to1_1738_3_alg».proof.Proof.Gen.ReferenceIdeal
import proofs.«141841_g26706106646738_cont_8to1_1738_3_alg».proof.Proof.Gen.ReferenceIdeal.Run
import proofs.«141841_g26706106646738_cont_8to1_1738_3_alg».proof.Proof.Gen.Pre_finite_inputs
import proofs.«141841_g26706106646738_cont_8to1_1738_3_alg».proof.Proof.FiniteInputs
import proofs.«141841_g26706106646738_cont_8to1_1738_3_alg».proof.Proof.KernelValue
import proofs.«141841_g26706106646738_cont_8to1_1738_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition both programs end with the zero column: the kernel's result array by its run read block by
    block, the reference's by its run's term; the agreement of the memories carries finiteness across. -/
theorem algebraic : Cert.algebraic_KernelIdeal_ReferenceIdeal := by
  intro m ρ m' ρ' hpre hagree
  have hfin : ∀ c, Cert.KernelIdeal.ZeroValue.FinArgs m c := fun c => by
    obtain ⟨h0, h1, h2, h3, h4, h5⟩ := Cert.FiniteInputs.allFin_of_pre _ _ _ _ _ _ (hpre c)
    exact ⟨h0, h1, h2, h3, h4, h5⟩
  refine ⟨fun _ => fun _ => (0 : EReal), Cert.KernelIdeal.ZeroValue.run ρ hfin, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  exact Cert.ReferenceIdeal.RefValue.result_zero m' c (by rw [a0]; exact (hfin c).x) (by rw [a1]; exact (hfin c).adj)
    (by rw [a2]; exact (hfin c).w0) (by rw [a3]; exact (hfin c).b0) (by rw [a4]; exact (hfin c).w1) (by rw [a5]; exact (hfin c).b1)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
